-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S2048 : Shape := ⟨1, ![2048]⟩
abbrev S32x2048 : Shape := ⟨2, ![32, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S32x2048 : S_.BroadcastsInDim S32x2048 (![] : Fin 0 → Fin S32x2048.rank)
  reducesTo_S32x2048_S_d0_1 : S32x2048.ReducesTo [0, 1] S_

variable [Facts]

def fn_part1 {F : FTy → Type} [FloatOps F] (main_v13 : IVec S_ 1) (main_v16 : IVec S32x2048 1) : IVec S_ 1 :=
  let main_c_5 : IVec S_ 1 := constantI S_ 1 1#1
  let main_v17 : IVec S_ 1 := (fun x v => Host.reduce IntOp.andi x v reducesTo_S32x2048_S_d0_1 h_S_) main_v16 main_c_5
  let main_v18 : IVec S_ 1 := andi main_v13 main_v17
  main_v18

def fn {F : FTy → Type} [FloatOps F] (main_arg0 : FVec F S4x4096x2048 .f32) (main_arg1 : FVec F S2048x2048 .f32) (main_arg2 : FVec F S2048 .f32) (main_arg3 : FVec F S32x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S32x2048 .f32 := Host.absf main_arg3
  let main_cst_4 : FVec F S_ .f32 := constant S_ .f32 0x7F800000#32
  let main_v15 : FVec F S32x2048 .f32 := broadcastInDim S32x2048 ![] bcast_S_S32x2048 main_cst_4
  let main_v16 : IVec S32x2048 1 := cmpf .olt main_v14 main_v15
  fn_part1 (F := F) main_v13 main_v16
-- ==== Kernel.lean ====
abbrev S4x4096x2048 : Shape := ⟨3, ![4, 4096, 2048]⟩
abbrev S2048x2048 : Shape := ⟨2, ![2048, 2048]⟩
abbrev S2048 : Shape := ⟨1, ![2048]⟩
abbrev S32x2048 : Shape := ⟨2, ![32, 2048]⟩
abbrev S2048x32 : Shape := ⟨2, ![2048, 32]⟩
abbrev S1x2048 : Shape := ⟨2, ![1, 2048]⟩
abbrev S_ : Shape := ⟨0, ![]⟩
abbrev S32 : Shape := ⟨1, ![32]⟩
abbrev S32x1 : Shape := ⟨2, ![32, 1]⟩
abbrev S1x256x2048 : Shape := ⟨3, ![1, 256, 2048]⟩
abbrev S256x2048 : Shape := ⟨2, ![256, 2048]⟩
abbrev S256x32 : Shape := ⟨2, ![256, 32]⟩
abbrev S255x2048 : Shape := ⟨2, ![255, 2048]⟩

abbrev nBuf : Space → Nat
  | .hbm => 36
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S32x2048, .f32⟩
  | .hbm, ⟨4, _⟩ => ⟨S2048x2048, .f32⟩
  | .hbm, ⟨5, _⟩ => ⟨S2048x2048, .bf16⟩
  | .hbm, ⟨6, _⟩ => ⟨S2048x32, .f32⟩
  | .hbm, ⟨7, _⟩ => ⟨S2048x32, .bf16⟩
  | .hbm, ⟨8, _⟩ => ⟨S1x2048, .f32⟩
  | .hbm, ⟨9, _⟩ => ⟨S2048, .i32⟩
  | .hbm, ⟨10, _⟩ => ⟨S_, .i32⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S1x2048, .i32⟩
  | .hbm, ⟨29, _⟩ => ⟨S32, .i32⟩
  | .hbm, ⟨30, _⟩ => ⟨S32x1, .i32⟩
  | .hbm, ⟨31, _⟩ => ⟨S32x2048, .i32⟩
  | .hbm, ⟨32, _⟩ => ⟨S32x2048, .i32⟩
  | .hbm, ⟨33, _⟩ => ⟨S32x2048, .i1⟩
  | .hbm, ⟨34, _⟩ => ⟨S32x2048, .f32⟩
  | .hbm, ⟨35, _⟩ => ⟨S4x4096x2048, .f32⟩
  | .local _ .vmem, ⟨0, _⟩ => ⟨S1x256x2048, .f32⟩
  | .local _ .vmem, ⟨1, _⟩ => ⟨S1x256x2048, .f32⟩
  | .local _ .vmem, ⟨2, _⟩ => ⟨S2048x2048, .bf16⟩
  | .local _ .vmem, ⟨3, _⟩ => ⟨S2048x32, .bf16⟩
  | .local _ .vmem, ⟨4, _⟩ => ⟨S1x2048, .f32⟩
  | .local _ .vmem, ⟨5, _⟩ => ⟨S32x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S2048x2048_S2048x2048_1_0 : S2048x2048.Transposes [1, 0] S2048x2048
  bitsLt_bf16_f32 : FTy.bits .bf16 < FTy.bits .f32
  transposes_S32x2048_S2048x32_1_0 : S32x2048.Transposes [1, 0] S2048x32
  shapeCasts_S2048_S1x2048 : S2048.ShapeCasts S1x2048
  bcast_S_S2048 : S_.BroadcastsInDim S2048 (![] : Fin 0 → Fin S2048.rank)
  bcast_S2048_S1x2048_1 : S2048.BroadcastsInDim S1x2048 (![1] : Fin 1 → Fin S1x2048.rank)
  bcast_S32_S32x1_0 : S32.BroadcastsInDim S32x1 (![0] : Fin 1 → Fin S32x1.rank)
  bcast_S1x2048_S32x2048_0_1 : S1x2048.BroadcastsInDim S32x2048 (![0, 1] : Fin 2 → Fin S32x2048.rank)
  bcast_S32x1_S32x2048_0_1 : S32x1.BroadcastsInDim S32x2048 (![0, 1] : Fin 2 → Fin S32x2048.rank)
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  broadcasts_S1x2048_S256x2048 : S1x2048.Broadcasts S256x2048
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  slices_S256x2048_o0_0_S255x2048 : S256x2048.Slices ![0, 0] S255x2048
  concatenates_S1x2048_S255x2048_S256x2048_d0 : Shape.Concatenates [S1x2048, S255x2048] S256x2048 0
  slices_S256x2048_o255_0_S1x2048 : S256x2048.Slices ![255, 0] S1x2048
  shapeCasts_S256x2048_S1x256x2048 : S256x2048.ShapeCasts S1x256x2048
  dot_S256x2048_S2048x2048_S256x2048_1_0_0_1_n_n_wf : DotDims.WF S256x2048 S2048x2048 S256x2048 [1] [0] [0] [1] [] []
  dot_S256x2048_S2048x32_S256x32_1_0_0_1_n_n_wf : DotDims.WF S256x2048 S2048x32 S256x32 [1] [0] [0] [1] [] []
  dot_S256x32_S32x2048_S256x2048_1_0_0_1_n_n_wf : DotDims.WF S256x32 S32x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S4x4096x2048.size a
  hwx0_0 : ∀ i : grid0.Coords, EltTy.bits .f32 = 32 ∨ (Rect.block (s := S4x4096x2048) S1x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x32.size a ≤ S2048x32.size a
  hwx0_2 : ∀ i : grid0.Coords, EltTy.bits .bf16 = 32 ∨ (Rect.block (s := S2048x32) S2048x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x2048.size a ≤ S32x2048.size a
  hwx0_4 : ∀ i : grid0.Coords, EltTy.bits .f32 = 32 ∨ (Rect.block (s := S32x2048) S32x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S4x4096x2048.size a
  hwx0_5 : ∀ i : grid0.Coords, EltTy.bits .f32 = 32 ∨ (Rect.block (s := S4x4096x2048) S1x256x2048.size (cc0_transform_5 i) (hinb0_5 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x2048_S2048x32_S256x32_1_0_0_1_n_n : DotDims S256x2048 S2048x32 S256x32 where
  lhsContracting := [1]
  rhsContracting := [0]
  lhsNonContracting := [0]
  rhsNonContracting := [1]
  lhsBatch := []
  rhsBatch := []
  wf := dot_S256x2048_S2048x32_S256x32_1_0_0_1_n_n_wf
def dot_S256x32_S32x2048_S256x2048_1_0_0_1_n_n : DotDims S256x32 S32x2048 S256x2048 where
  lhsContracting := [1]
  rhsContracting := [0]
  lhsNonContracting := [0]
  rhsNonContracting := [1]
  lhsBatch := []
  rhsBatch := []
  wf := dot_S256x32_S32x2048_S256x2048_1_0_0_1_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S32x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x2048 : Shape := ⟨2, ![2048, 2048]⟩
abbrev S2048 : Shape := ⟨1, ![2048]⟩
abbrev S32x2048 : Shape := ⟨2, ![32, 2048]⟩
abbrev S1x1x2048 : Shape := ⟨3, ![1, 1, 2048]⟩
abbrev S4x4096x32 : Shape := ⟨3, ![4, 4096, 32]⟩
abbrev S_ : Shape := ⟨0, ![]⟩
abbrev S4x4096x32x64 : Shape := ⟨4, ![4, 4096, 32, 64]⟩
abbrev S4x4095x32x64 : Shape := ⟨4, ![4, 4095, 32, 64]⟩
abbrev S4x4096x32x1 : Shape := ⟨4, ![4, 4096, 32, 1]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S32x2048, .f32⟩
  | .hbm, ⟨4, _⟩ => ⟨S4x4096x2048, .f32⟩
  | .hbm, ⟨5, _⟩ => ⟨S1x1x2048, .f32⟩
  | .hbm, ⟨6, _⟩ => ⟨S4x4096x2048, .f32⟩
  | .hbm, ⟨7, _⟩ => ⟨S4x4096x2048, .f32⟩
  | .hbm, ⟨8, _⟩ => ⟨S4x4096x32, .f32⟩
  | .hbm, ⟨9, _⟩ => ⟨S4x4096x32, .f32⟩
  | .hbm, ⟨10, _⟩ => ⟨S4x4096x32, .f32⟩
  | .hbm, ⟨11, _⟩ => ⟨S_, .f32⟩
  | .hbm, ⟨12, _⟩ => ⟨S4x4096x32, .f32⟩
  | .hbm, ⟨13, _⟩ => ⟨S4x4096x32, .f32⟩
  | .hbm, ⟨14, _⟩ => ⟨S_, .f32⟩
  | .hbm, ⟨15, _⟩ => ⟨S4x4096x32, .f32⟩
  | .hbm, ⟨16, _⟩ => ⟨S4x4096x32, .f32⟩
  | .hbm, ⟨17, _⟩ => ⟨S4x4096x32x64, .f32⟩
  | .hbm, ⟨18, _⟩ => ⟨S4x4095x32x64, .f32⟩
  | .hbm, ⟨19, _⟩ => ⟨S_, .i32⟩
  | .hbm, ⟨20, _⟩ => ⟨S_, .f32⟩
  | .hbm, ⟨21, _⟩ => ⟨S4x4096x32x64, .f32⟩
  | .hbm, ⟨22, _⟩ => ⟨S4x4096x32x1, .f32⟩
  | .hbm, ⟨23, _⟩ => ⟨S4x4096x32x64, .f32⟩
  | .hbm, ⟨24, _⟩ => ⟨S4x4096x32x64, .f32⟩
  | .hbm, ⟨25, _⟩ => ⟨S_, .f32⟩
  | .hbm, ⟨26, _⟩ => ⟨S4x4096x32x1, .f32⟩
  | .hbm, ⟨27, _⟩ => ⟨S4x4096x32x1, .f32⟩
  | .hbm, ⟨28, _⟩ => ⟨S4x4096x32x64, .f32⟩
  | .hbm, ⟨29, _⟩ => ⟨S4x4096x32x64, .f32⟩
  | .hbm, ⟨30, _⟩ => ⟨S4x4096x32x64, .f32⟩
  | .hbm, ⟨31, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  bcast_S_S4x4096x32 : S_.BroadcastsInDim S4x4096x32 (![] : Fin 0 → Fin S4x4096x32.rank)
  shapeCasts_S4x4096x2048_S4x4096x32x64 : S4x4096x2048.ShapeCasts S4x4096x32x64
  slices_S4x4096x32x64_S4x4095x32x64_0_0_0_0 : S4x4096x32x64.Slices ![0, 0, 0, 0] S4x4095x32x64
  pads_S4x4095x32x64_S4x4096x32x64_000_100_000_000 : S4x4095x32x64.Pads (![0, 1, 0, 0] : Fin 4 → Nat) ![0, 0, 0, 0] ![0, 0, 0, 0] S4x4096x32x64
  h_S_ : 0 < S_.numel
  bcast_S4x4096x32_S4x4096x32x1_0_1_2 : S4x4096x32.BroadcastsInDim S4x4096x32x1 (![0, 1, 2] : Fin 3 → Fin S4x4096x32x1.rank)
  bcast_S4x4096x32x1_S4x4096x32x64_0_1_2_3 : S4x4096x32x1.BroadcastsInDim S4x4096x32x64 (![0, 1, 2, 3] : Fin 4 → Fin S4x4096x32x64.rank)
  bcast_S_S4x4096x32x1 : S_.BroadcastsInDim S4x4096x32x1 (![] : Fin 0 → Fin S4x4096x32x1.rank)
  shapeCasts_S4x4096x32x64_S4x4096x2048 : S4x4096x32x64.ShapeCasts S4x4096x2048
  dot_S4x4096x2048_S2048x2048_S4x4096x2048_2_1_01_0_n_n_wf : DotDims.WF S4x4096x2048 S2048x2048 S4x4096x2048 [2] [1] [0, 1] [0] [] []
  dot_S4x4096x2048_S32x2048_S4x4096x32_2_1_01_0_n_n_wf : DotDims.WF S4x4096x2048 S32x2048 S4x4096x32 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf
def dot_S4x4096x2048_S32x2048_S4x4096x32_2_1_01_0_n_n : DotDims S4x4096x2048 S32x2048 S4x4096x32 where
  lhsContracting := [2]
  rhsContracting := [1]
  lhsNonContracting := [0, 1]
  rhsNonContracting := [0]
  lhsBatch := []
  rhsBatch := []
  wf := dot_S4x4096x2048_S32x2048_S4x4096x32_2_1_01_0_n_n_wf

class Facts : Prop extends Facts₀ where

variable [Facts]
-- ==== Proof.Spec.lean ====
/-
  The function both programs compute, index by index, on the extended reals.

  For a batch n, a time step t and an output column o (head h = o / 64):
    lin n t o  = (sum over d of x[n,t,d] * W[o,d]) + b[o]            the dense projection
    gate n t h = logistic (sum over d of x[n,t,d] * Ws[h,d])         the per-head gate
    prev n t o = 0 if t = 0, else lin n (t-1) o                      the previous step's projection
    res n t o  = gate n t h * prev n t o + (1 - gate n t h) * lin n t o
  Also here: a sum against a one-hot row selects one term, and the float literal 1.0 is the real 1.
-/
import Idealize.ShloMosaic.PureOps.Ideal
import Idealize.ShloMosaic.Lib.ValueIdx

noncomputable section

namespace Cert.ShiftGate

open Idealize.ShloMosaic Idealize.ShloMosaic.ValueIdx

abbrev SX : Shape := ⟨3, ![4, 4096, 2048]⟩
abbrev SW : Shape := ⟨2, ![2048, 2048]⟩
abbrev SB : Shape := ⟨1, ![2048]⟩
abbrev SG : Shape := ⟨2, ![32, 2048]⟩

/-- The float literal 1.0, as both programs print it. -/
abbrev one : EReal := Ideal.ofBits .f32 0x3F800000#32

theorem one_eq : one = 1 := by
  simp [one, Ideal.ofBits, Ideal.ieee, -EReal.coe_mul]; norm_num

/-- The head an output column belongs to: 64 columns per head. -/
def headOf (o : Fin 2048) : Fin 32 := ⟨o.val / 64, by have := o.isLt; omega⟩

/-- The dense projection: row (n, t) of x against row o of W, plus the bias. -/
def lin (x : SX.Idx → EReal) (W : SW.Idx → EReal) (b : SB.Idx → EReal) (n : Fin 4) (t : Fin 4096) (o : Fin 2048) : EReal :=
  (∑ d : Fin 2048, x (ix3 n t d) * W (ix2 o d)) + b (ix1 o)

/-- The gate of head h at (n, t): the logistic of row (n, t) of x against row h of Ws. -/
def gate (x : SX.Idx → EReal) (Ws : SG.Idx → EReal) (n : Fin 4) (t : Fin 4096) (h : Fin 32) : EReal :=
  Ideal.logistic (∑ d : Fin 2048, x (ix3 n t d) * Ws (ix2 h d))

/-- The projection one time step earlier, zero at the first step. -/
def prev (x : SX.Idx → EReal) (W : SW.Idx → EReal) (b : SB.Idx → EReal) (n : Fin 4) (t : Fin 4096) (o : Fin 2048) : EReal :=
  if t.val = 0 then 0 else lin x W b n ⟨t.val - 1, by have := t.isLt; omega⟩ o

/-- The gated blend of the previous and the current projection, by coordinates. -/
def res (x : SX.Idx → EReal) (W : SW.Idx → EReal) (b : SB.Idx → EReal) (Ws : SG.Idx → EReal)
    (n : Fin 4) (t : Fin 4096) (o : Fin 2048) : EReal :=
  gate x Ws n t (headOf o) * prev x W b n t o + (one - gate x Ws n t (headOf o)) * lin x W b n t o

/-- The result array. -/
def G (x : SX.Idx → EReal) (W : SW.Idx → EReal) (b : SB.Idx → EReal) (Ws : SG.Idx → EReal) : SX.Idx → EReal :=
  fun j => res x W b Ws (j 0) (j 1) (j 2)

theorem G_ix3 (x : SX.Idx → EReal) (W : SW.Idx → EReal) (b : SB.Idx → EReal) (Ws : SG.Idx → EReal)
    (n : Fin 4) (t : Fin 4096) (o : Fin 2048) : G x W b Ws (ix3 n t o) = res x W b Ws n t o := rfl

/-- A sum against a one-hot row keeps exactly the selected term: every other product is a * 0 = 0,
    which holds on the extended reals for infinite a too. -/
theorem sum_onehot (a : Fin 32 → EReal) (e : Fin 32 → EReal) (k : Fin 32)
    (he : ∀ h, e h = if h = k then 1 else 0) : (∑ h : Fin 32, a h * e h) = a k := by
  rw [Finset.sum_eq_single k]
  · rw [he k, if_pos rfl, mul_one]
  · intro h _ hne
    rw [he h, if_neg hne, mul_zero]
  · intro hk; exact absurd (Finset.mem_univ k) hk

end Cert.ShiftGate

end
-- ==== Proof.Payload.lean ====
/-
  The body's arithmetic at one grid point, read at an index, on the extended reals.

  The body holds a 256-row block x0 of the input, the transposed weights x1 (2048 x 2048) and x2 (2048 x 32),
  the bias row x3, the one-hot head selector x4 (32 x 2048) and the carried row v.  Its projection block is
      linB r o = (sum over d of x0[r,d] * x1[d,o]) + x3[o],
  the carried row it leaves is row 255 of that block, and the block it stores is
      a[r,o] * sh[r,o] + (1 - a[r,o]) * linB r o
  with a[r,o] = sum over h of logistic (sum over d of x0[r,d] * x2[d,h]) * x4[h,o]
  and sh the projection block shifted down by one row, the carried row v on top.
-/
import proofs.«130949_j695784702569_1_alg».proof.Proof.Gen.KernelIdeal.Skeleton
import proofs.«130949_j695784702569_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ShiftGate.Pay

open Cert.KernelIdeal Cert.KernelIdeal.Gen Idealize.ShloMosaic Idealize.ShloMosaic.ValueIdx

/-! ## A plain M x K by K x N product into a zero accumulator, at an index -/

section Plain
variable (M K N : Nat)

theorem plain_lhs0 (j : (⟨2, ![M, N]⟩ : Shape).Idx) (k : (DotDims.plain M K N).contr.Idx) :
    ((DotDims.plain M K N).lhsIdx j k 0).val = (j 0).val := rfl
theorem plain_lhs1 (j : (⟨2, ![M, N]⟩ : Shape).Idx) (k : (DotDims.plain M K N).contr.Idx) :
    ((DotDims.plain M K N).lhsIdx j k 1).val = (k ⟨0, Nat.zero_lt_one⟩).val := rfl
theorem plain_rhs0 (j : (⟨2, ![M, N]⟩ : Shape).Idx) (k : (DotDims.plain M K N).contr.Idx) :
    ((DotDims.plain M K N).rhsIdx j k 0).val = (k ⟨0, Nat.zero_lt_one⟩).val := rfl
theorem plain_rhs1 (j : (⟨2, ![M, N]⟩ : Shape).Idx) (k : (DotDims.plain M K N).contr.Idx) :
    ((DotDims.plain M K N).rhsIdx j k 1).val = (j 1).val := rfl

/-- Entry (p, q) of the product is the sum over the shared axis of row p of the left factor against
    column q of the right one. -/
theorem plain_matmul_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ j : Fin K, L (ix2 p j) * R (ix2 j q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 M K N _ _).trans hk
      | ⟨1, _⟩ => exact plain_rhs1 M K N _ _)
  rw [el, er]

end Plain

/-! ## The projection block -/

/-- Entry (r, o) of the block's projection: row r of the input block against column o of the transposed
    weights, plus the bias. -/
def linB (x0 : FVec Ideal S1x256x2048 .f32) (x1 : FVec Ideal S2048x2048 .bf16) (x3 : FVec Ideal S1x2048 .f32)
    (r : Fin 256) (o : Fin 2048) : EReal :=
  (∑ d : Fin 2048, x0 (ix3 (0 : Fin 1) r d) * x1 (ix2 d o)) + x3 (ix2 (0 : Fin 1) o)

theorem pay4_apply (x0 : FVec Ideal S1x256x2048 .f32) (x1 : FVec Ideal S2048x2048 .bf16) (x3 : FVec Ideal S1x2048 .f32)
    (r : Fin 256) (o : Fin 2048) :
    k0_pay4 (F := Ideal) x0 x1 x3 (ix2 r o) = linB x0 x1 x3 r o := by
  unfold k0_pay4 k0_pay3 linB
  show FloatOps.matmul (DotDims.plain 256 2048 2048) none
        (truncf .bf16 (shapeCast S256x2048 x0 shapeCasts_S1x256x2048_S256x2048) bitsLt_bf16_f32)
        (shapeCast S2048x2048 x1 shapeCasts_S2048x2048_S2048x2048) (constant S256x2048 .f32 0x00000000#32) (ix2 r o)
      + broadcastTo S256x2048 (shapeCast S1x2048 x3 shapeCasts_S1x2048_S1x2048) broadcasts_S1x2048_S256x2048 (ix2 r o) = _
  rw [plain_matmul_apply, broadcastTo_1b_ab_apply, shapeCast_self, shapeCast_self]
  refine congrArg (· + x3 (ix2 (0 : Fin 1) o)) (Finset.sum_congr rfl fun d _ => ?_)
  rw [truncf_apply, shapeCast_1ab_ab_apply]

/-- The row the body leaves in the carried buffer is the last row of its projection block. -/
theorem pay5_apply (x0 : FVec Ideal S1x256x2048 .f32) (x1 : FVec Ideal S2048x2048 .bf16) (x3 : FVec Ideal S1x2048 .f32)
    (u : Fin 1) (o : Fin 2048) :
    k0_pay5 (F := Ideal) x0 x1 x3 (ix2 u o) = linB x0 x1 x3 ⟨255, by decide⟩ o := by
  unfold k0_pay5
  show shapeCast S1x2048 (extractStridedSlice S1x2048 ![255, 0] (k0_pay4 (F := Ideal) x0 x1 x3) slices_S256x2048_o255_0_S1x2048)
      shapeCasts_S1x2048_S1x2048 (ix2 u o) = _
  rw [shapeCast_self, slice2_axis0_apply 255 _ _ u o ⟨255, by decide⟩ (by have := u.isLt; show 255 = 255 + u.val; omega)]
  exact pay4_apply x0 x1 x3 _ o

/-- The zero row the body writes into the carried buffer at a sequence's first block. -/
theorem pay2_apply (u : Fin 1) (o : Fin 2048) : (k0_pay2 (F := Ideal)) (ix2 u o) = 0 := by
  unfold k0_pay2
  show shapeCast S1x2048 (broadcast S1x2048 (Scalar.ofBits (F := Ideal) .f32 0x00000000#32)) shapeCasts_S1x2048_S1x2048 (ix2 u o) = 0
  rw [shapeCast_self]
  exact Ideal.ofBits_zero_f32

/-! ## The gate, spread over the columns by the selector -/

/-- Entry (r, o) of the gate block: the logistic of row r of the input block against each column h of the
    transposed gate weights, summed against column o of the selector. -/
def gateB (x0 : FVec Ideal S1x256x2048 .f32) (x2 : FVec Ideal S2048x32 .bf16) (x4 : FVec Ideal S32x2048 .f32)
    (r : Fin 256) (o : Fin 2048) : EReal :=
  ∑ h : Fin 32, Ideal.logistic (∑ d : Fin 2048, x0 (ix3 (0 : Fin 1) r d) * x2 (ix2 d h)) * x4 (ix2 h o)

/-- The projection block shifted down one row, the carried row on top. -/
def shiftB (x0 : FVec Ideal S1x256x2048 .f32) (x1 : FVec Ideal S2048x2048 .bf16) (x3 : FVec Ideal S1x2048 .f32)
    (v : FVec Ideal S1x2048 .f32) (r : Fin 256) (o : Fin 2048) : EReal :=
  if h : r.val = 0 then v (ix2 (0 : Fin 1) o) else linB x0 x1 x3 ⟨r.val - 1, by have := r.isLt; omega⟩ o

theorem gate_apply (x0 : FVec Ideal S1x256x2048 .f32) (x2 : FVec Ideal S2048x32 .bf16) (x4 : FVec Ideal S32x2048 .f32)
    (r : Fin 256) (o : Fin 2048) :
    FloatOps.matmul (DotDims.plain 256 32 2048) (some .fp32)
        (logistic (FloatOps.matmul (DotDims.plain 256 2048 32) none (k0_pay3 (F := Ideal) x0)
          (shapeCast S2048x32 x2 shapeCasts_S2048x32_S2048x32) (constant S256x32 .f32 0x00000000#32)))
        (shapeCast S32x2048 x4 shapeCasts_S32x2048_S32x2048) (constant S256x2048 .f32 0x00000000#32) (ix2 r o)
      = gateB x0 x2 x4 r o := by
  unfold gateB
  rw [plain_matmul_apply, shapeCast_self x4, shapeCast_self x2]
  refine Finset.sum_congr rfl fun h _ => ?_
  refine congrArg (· * x4 (ix2 h o)) ?_
  show Ideal.logistic (FloatOps.matmul (DotDims.plain 256 2048 32) none (k0_pay3 (F := Ideal) x0)
          x2 (constant S256x32 .f32 0x00000000#32) (ix2 r h)) = _
  rw [plain_matmul_apply]
  refine congrArg Ideal.logistic (Finset.sum_congr rfl fun d _ => ?_)
  unfold k0_pay3
  show (truncf .bf16 (shapeCast S256x2048 x0 shapeCasts_S1x256x2048_S256x2048) bitsLt_bf16_f32) (ix2 r d) * _ = _
  rw [truncf_apply, shapeCast_1ab_ab_apply]

theorem shift_apply (x0 : FVec Ideal S1x256x2048 .f32) (x1 : FVec Ideal S2048x2048 .bf16) (x3 : FVec Ideal S1x2048 .f32)
    (v : FVec Ideal S1x2048 .f32) (r : Fin 256) (o : Fin 2048) :
    concatenate S256x2048 0 [⟨S1x2048, v⟩, ⟨S255x2048, extractStridedSlice S255x2048 ![0, 0] (k0_pay4 (F := Ideal) x0 x1 x3) slices_S256x2048_o0_0_S255x2048⟩]
        concatenates_S1x2048_S255x2048_S256x2048_d0 (ix2 r o)
      = shiftB x0 x1 x3 v r o := by
  unfold shiftB
  by_cases hr : r.val = 0
  · rw [dif_pos hr]
    refine concatenate_pair_apply_left (t := S256x2048) (s₁ := S1x2048) (s₂ := S255x2048) (0 : Fin S256x2048.rank) v _ _ (ix2 r o) rfl (ix2 (0 : Fin 1) o) fun b => ?_
    match b with
    | ⟨0, _⟩ => exact hr.symm
    | ⟨1, _⟩ => rfl
  · rw [dif_neg hr]
    have hlt : r.val - 1 < 255 := by have := r.isLt; omega
    refine (concatenate_pair_apply_right (t := S256x2048) (s₁ := S1x2048) (s₂ := S255x2048) (0 : Fin S256x2048.rank) v _ _ (ix2 r o) rfl rfl (ix2 (⟨r.val - 1, hlt⟩ : Fin 255) o)
      (fun b hb => ?_) ?_).trans ?_
    · match b with
      | ⟨0, _⟩ => exact absurd rfl hb
      | ⟨1, _⟩ => rfl
    · show r.val - 1 + 1 = r.val
      omega
    · rw [slice2_axis0_apply 0 _ _ (⟨r.val - 1, hlt⟩ : Fin 255) o ⟨r.val - 1, by omega⟩ (by show r.val - 1 = 0 + (r.val - 1); omega)]
      exact pay4_apply x0 x1 x3 _ o

/-! ## The stored block -/

theorem pay6_apply (x0 : FVec Ideal S1x256x2048 .f32) (x1 : FVec Ideal S2048x2048 .bf16) (x3 : FVec Ideal S1x2048 .f32)
    (x2 : FVec Ideal S2048x32 .bf16) (x4 : FVec Ideal S32x2048 .f32) (v : FVec Ideal S1x2048 .f32)
    (r : Fin 256) (o : Fin 2048) :
    k0_pay6 (F := Ideal) x0 x1 x3 x2 x4 v (ix2 r o)
      = gateB x0 x2 x4 r o * shiftB x0 x1 x3 v r o + (Cert.ShiftGate.one - gateB x0 x2 x4 r o) * linB x0 x1 x3 r o := by
  unfold k0_pay6
  show FloatOps.matmul (DotDims.plain 256 32 2048) (some .fp32)
        (logistic (FloatOps.matmul (DotDims.plain 256 2048 32) none (k0_pay3 (F := Ideal) x0)
          (shapeCast S2048x32 x2 shapeCasts_S2048x32_S2048x32) (constant S256x32 .f32 0x00000000#32)))
        (shapeCast S32x2048 x4 shapeCasts_S32x2048_S32x2048) (constant S256x2048 .f32 0x00000000#32) (ix2 r o)
      * concatenate S256x2048 0 [⟨S1x2048, v⟩, ⟨S255x2048, extractStridedSlice S255x2048 ![0, 0] (k0_pay4 (F := Ideal) x0 x1 x3) slices_S256x2048_o0_0_S255x2048⟩]
        concatenates_S1x2048_S255x2048_S256x2048_d0 (ix2 r o)
      + (Cert.ShiftGate.one - FloatOps.matmul (DotDims.plain 256 32 2048) (some .fp32)
        (logistic (FloatOps.matmul (DotDims.plain 256 2048 32) none (k0_pay3 (F := Ideal) x0)
          (shapeCast S2048x32 x2 shapeCasts_S2048x32_S2048x32) (constant S256x32 .f32 0x00000000#32)))
        (shapeCast S32x2048 x4 shapeCasts_S32x2048_S32x2048) (constant S256x2048 .f32 0x00000000#32) (ix2 r o))
        * k0_pay4 (F := Ideal) x0 x1 x3 (ix2 r o) = _
  rw [gate_apply, shift_apply, pay4_apply]

/-- The stored block is the computed one under a leading unit axis. -/
theorem pay1_apply (w : FVec Ideal S256x2048 .f32) (u : Fin 1) (r : Fin 256) (o : Fin 2048) :
    k0_pay1 (F := Ideal) w (ix3 u r o) = w (ix2 r o) := by
  unfold k0_pay1
  exact shapeCast_ab_1ab_apply w _ u r o

end Cert.ShiftGate.Pay

end
-- ==== Proof.Pieces.lean ====
/-
  What each control case of the body leaves behind, as the body's payloads of the blocks it was given.

  At the first block of a sequence the carried row is first set to zero, so the stored block is the payload
  over a zero row; at every other block it is the payload over the row the block before left.  In both
  cases the row left behind is the last row of this block's projection: it does not depend on what was
  carried in.
-/
import proofs.«130949_j695784702569_1_alg».proof.Proof.Gen.KernelIdeal.Frame
import Idealize.ShloMosaic.Lib.Pipeline.Value

set_option maxRecDepth 16384

noncomputable section

namespace Cert.ShiftGate.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First block of a sequence: the row left behind is the payload's last projection row (the zero row
    written first lies under it). -/
theorem soutA_eq (c : Dev nD) (i : grid0.Coords) (arg2 : Memref sig .tc .vmem S1x256x2048 .f32) (harg2 : arg2.IsWhole) (arg3 : Memref sig .tc .vmem S2048x2048 .bf16) (harg3 : arg3.IsWhole) (arg4 : Memref sig .tc .vmem S2048x32 .bf16) (harg4 : arg4.IsWhole) (arg5 : Memref sig .tc .vmem S1x2048 .f32) (harg5 : arg5.IsWhole) (arg6 : Memref sig .tc .vmem S32x2048 .f32) (harg6 : arg6.IsWhole) (arg7 : Memref sig .tc .vmem S1x256x2048 .f32) (harg7 : arg7.IsWhole) (arg8 : Memref sig .tc .vmem S1x2048 .f32) (harg8 : arg8.IsWhole) (hc0 : cond0_0 i) (x0 : Vec F S1x256x2048 .f32) (x1 : Vec F S2048x2048 .bf16) (x2 : Vec F S2048x32 .bf16) (x3 : Vec F S1x2048 .f32) (x4 : Vec F S32x2048 .f32) :
    sout0_A_0 c i arg2 harg2 arg3 harg3 arg4 harg4 arg5 harg5 arg6 harg6 arg7 harg7 arg8 harg8 hc0 x0 x1 x2 x3 x4 = k0_pay5 x0 x1 x3 := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  try sl_unfold_words
  rw [View.canon_cons_unit_zero (S := S1x2048) hz2]
  simp only [View.readAt_eq_ld, harg2.read_unread, harg3.read_unread, harg5.read_unread,
    View.ld_unit_zero (S := S1x256x2048) hz3, View.ld_unit_zero (S := S2048x2048) hz2, View.ld_unit_zero (S := S1x2048) hz2]

/-- Any later block: the same row, whatever was carried in. -/
theorem soutB_eq (c : Dev nD) (i : grid0.Coords) (arg2 : Memref sig .tc .vmem S1x256x2048 .f32) (harg2 : arg2.IsWhole) (arg3 : Memref sig .tc .vmem S2048x2048 .bf16) (harg3 : arg3.IsWhole) (arg4 : Memref sig .tc .vmem S2048x32 .bf16) (harg4 : arg4.IsWhole) (arg5 : Memref sig .tc .vmem S1x2048 .f32) (harg5 : arg5.IsWhole) (arg6 : Memref sig .tc .vmem S32x2048 .f32) (harg6 : arg6.IsWhole) (arg7 : Memref sig .tc .vmem S1x256x2048 .f32) (harg7 : arg7.IsWhole) (arg8 : Memref sig .tc .vmem S1x2048 .f32) (harg8 : arg8.IsWhole) (hc0 : ¬cond0_0 i) (x0 : Vec F S1x256x2048 .f32) (x1 : Vec F S2048x2048 .bf16) (x2 : Vec F S2048x32 .bf16) (x3 : Vec F S1x2048 .f32) (x4 : Vec F S32x2048 .f32) (xs0 : Vec F S1x2048 .f32) :
    sout0_B_0 c i arg2 harg2 arg3 harg3 arg4 harg4 arg5 harg5 arg6 harg6 arg7 harg7 arg8 harg8 hc0 x0 x1 x2 x3 x4 xs0 = k0_pay5 x0 x1 x3 := by
  unfold sout0_B_0
  rw [View.read_writes_eq_canon _ _ _ (scover0_B_0 c i arg2 harg2 arg3 harg3 arg4 harg4 arg5 harg5 arg6 harg6 arg7 harg7 arg8 harg8 hc0 x0 x1 x2 x3 x4 xs0)]
  unfold kernelRun0_B
  dsimp only
  try sl_unfold_words
  rw [View.canon_unit_zero hz2]
  simp only [View.readAt_eq_ld, harg2.read_unread, harg3.read_unread, harg5.read_unread,
    View.ld_unit_zero (S := S1x256x2048) hz3, View.ld_unit_zero (S := S2048x2048) hz2, View.ld_unit_zero (S := S1x2048) hz2]

/-- First block of a sequence: the stored block is the payload over the zero row just written. -/
theorem outA_eq (c : Dev nD) (i : grid0.Coords) (arg2 : Memref sig .tc .vmem S1x256x2048 .f32) (harg2 : arg2.IsWhole) (arg3 : Memref sig .tc .vmem S2048x2048 .bf16) (harg3 : arg3.IsWhole) (arg4 : Memref sig .tc .vmem S2048x32 .bf16) (harg4 : arg4.IsWhole) (arg5 : Memref sig .tc .vmem S1x2048 .f32) (harg5 : arg5.IsWhole) (arg6 : Memref sig .tc .vmem S32x2048 .f32) (harg6 : arg6.IsWhole) (arg7 : Memref sig .tc .vmem S1x256x2048 .f32) (harg7 : arg7.IsWhole) (arg8 : Memref sig .tc .vmem S1x2048 .f32) (harg8 : arg8.IsWhole) (hc0 : cond0_0 i) (x0 : Vec F S1x256x2048 .f32) (x1 : Vec F S2048x2048 .bf16) (x2 : Vec F S2048x32 .bf16) (x3 : Vec F S1x2048 .f32) (x4 : Vec F S32x2048 .f32) :
    out0_A_5 c i arg2 harg2 arg3 harg3 arg4 harg4 arg5 harg5 arg6 harg6 arg7 harg7 arg8 harg8 hc0 x0 x1 x2 x3 x4 = k0_pay1 (k0_pay6 x0 x1 x3 x2 x4 (k0_pay2 (F := F))) := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  try sl_unfold_words
  rw [View.canon_unit_zero hz3]
  simp only [View.readAt_eq_ld, harg2.read_unread, harg3.read_unread, harg4.read_unread, harg5.read_unread, harg6.read_unread,
    View.readCov_unit_zero (S := S1x2048) _ hz2,
    View.ld_unit_zero (S := S1x256x2048) hz3, View.ld_unit_zero (S := S2048x2048) hz2, View.ld_unit_zero (S := S1x2048) hz2,
    View.ld_unit_zero (S := S2048x32) hz2, View.ld_unit_zero (S := S32x2048) hz2]

/-- Any later block: the stored block is the payload over the row carried in. -/
theorem outB_eq (c : Dev nD) (i : grid0.Coords) (arg2 : Memref sig .tc .vmem S1x256x2048 .f32) (harg2 : arg2.IsWhole) (arg3 : Memref sig .tc .vmem S2048x2048 .bf16) (harg3 : arg3.IsWhole) (arg4 : Memref sig .tc .vmem S2048x32 .bf16) (harg4 : arg4.IsWhole) (arg5 : Memref sig .tc .vmem S1x2048 .f32) (harg5 : arg5.IsWhole) (arg6 : Memref sig .tc .vmem S32x2048 .f32) (harg6 : arg6.IsWhole) (arg7 : Memref sig .tc .vmem S1x256x2048 .f32) (harg7 : arg7.IsWhole) (arg8 : Memref sig .tc .vmem S1x2048 .f32) (harg8 : arg8.IsWhole) (hc0 : ¬cond0_0 i) (x0 : Vec F S1x256x2048 .f32) (x1 : Vec F S2048x2048 .bf16) (x2 : Vec F S2048x32 .bf16) (x3 : Vec F S1x2048 .f32) (x4 : Vec F S32x2048 .f32) (xs0 : Vec F S1x2048 .f32) :
    out0_B_5 c i arg2 harg2 arg3 harg3 arg4 harg4 arg5 harg5 arg6 harg6 arg7 harg7 arg8 harg8 hc0 x0 x1 x2 x3 x4 xs0 = k0_pay1 (k0_pay6 x0 x1 x3 x2 x4 xs0) := by
  unfold out0_B_5
  rw [View.read_writes_eq_canon _ _ _ (cover0_B_5 c i arg2 harg2 arg3 harg3 arg4 harg4 arg5 harg5 arg6 harg6 arg7 harg7 arg8 harg8 hc0 x0 x1 x2 x3 x4 xs0)]
  unfold kernelRun0_B
  dsimp only
  try sl_unfold_words
  rw [View.canon_unit_zero hz3]
  simp only [View.readAt_eq_ld, harg2.read_unread, harg3.read_unread, harg4.read_unread, harg5.read_unread, harg6.read_unread, harg8.read_unread,
    View.ld_unit_zero (S := S1x256x2048) hz3, View.ld_unit_zero (S := S2048x2048) hz2, View.ld_unit_zero (S := S1x2048) hz2,
    View.ld_unit_zero (S := S2048x32) hz2, View.ld_unit_zero (S := S32x2048) hz2]

end Cert.ShiftGate.Pieces

end
-- ==== Proof.HostPrefix.lean ====
/-
  What the arrays the kernel region stages hold when the region is entered, read at an index, on the extended reals.

  Before the region the program prepares four arrays from its arguments W [2048, 2048], b [2048] and Ws [32, 2048]:
    WT  [2048, 2048]   WT[d, o]  = W[o, d]      the transpose (the change of float format is the identity here)
    WsT [2048, 32]     WsT[d, h] = Ws[h, d]     likewise
    b2  [1, 2048]      b2[0, o]  = b[o]         the bias as one row
    E   [32, 2048]     E[h, o]   = 1 if o / 64 = h, else 0      the head selector
  The first three are layout operations read at an index. The selector is computed on 32-bit words: the column
  positions 0 … 2047 divided by 64 rounding toward minus infinity (a signed quotient, lowered by one where the
  operands' signs differ and the remainder is not zero), compared for equality with the row positions 0 … 31, the
  resulting bit turned into a number. For a position p with 0 ≤ p < 2048 the signs never differ with a non-zero
  remainder, so the quotient is the natural-number quotient p / 64; this is checked position by position on the words.
-/
import proofs.«130949_j695784702569_1_alg».proof.Proof.Gen.KernelIdeal.Frame
import proofs.«130949_j695784702569_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.ShiftGate.Host

open Cert.KernelIdeal Cert.KernelIdeal.Gen Idealize.ShloMosaic Idealize.ShloMosaic.TcCoe Idealize.ShloMosaic.ValueIdx
open Idealize.SL.Sem

/-! ## Division by 64 rounding down, on 32-bit words -/

/-- The sign of a word read as a signed integer: 0, -1 or 1. -/
def sgn (x : BitVec 32) : BitVec 32 := if x = 0 then 0 else if x.msb then -1 else 1

/-- The floor of x / 64 as the program computes it on one word: the signed quotient q (rounded toward zero), and q - 1
    in its place exactly when the signs of x and 64 differ and the signed remainder is not zero. -/
def fdiv64 (x : BitVec 32) : BitVec 32 :=
  Scalar.select
    (IntOp.andi
      (IntOp.cmpi .ne (sgn x) (sgn 64#32))
      (IntOp.cmpi .ne (IntOp.remsi .host x 64#32) 0#32))
    (IntOp.subi (IntOp.divsi .host x 64#32) 1#32)
    (IntOp.divsi .host x 64#32)

/-- On the word of a position p below 2048 it is the word of p / 64: the divisor 64 is no corner of signed division,
    p is not negative, so the correction never applies. Evaluated at each of the 2048 positions. -/
theorem fdiv64_small : ∀ p : Fin 2048, fdiv64 (BitVec.ofNat 32 p.val) = BitVec.ofNat 32 (p.val / 64) := by
  decide +kernel

/-- Two numbers below 2³² with the same 32-bit word are equal. -/
theorem word_inj {a b : ℕ} (ha : a < 2 ^ 32) (hb : b < 2 ^ 32) (h : BitVec.ofNat 32 a = BitVec.ofNat 32 b) : a = b := by
  have h' := congrArg BitVec.toNat h
  rwa [BitVec.toNat_ofNat, BitVec.toNat_ofNat, Nat.mod_eq_of_lt ha, Nat.mod_eq_of_lt hb] at h'

/-! ## Indices written two ways -/

/-- Row p, column q of a rectangle: the index built by coordinates. -/
theorem ij_eq_ix2 {n k : ℕ} (p : Fin n) (q : Fin k) : StableHlo.Predicate.ij p q = ix2 p q := by
  funext d; match d with | ⟨0, _⟩ => rfl | ⟨1, _⟩ => rfl

/-- Position q of a vector: the index built by its coordinate. -/
theorem ofFin_eq_ix1 {n : ℕ} (q : Fin n) : Shape.Idx.ofFin q = ix1 q := by
  funext d; match d with | ⟨0, _⟩ => rfl

/-! ## The vector of heads: the column positions divided by 64 -/

/-- The column positions 0 … 2047, each divided by 64 rounding down, as the program's operations on whole vectors of
    words: the positions, the constant 64 spread over them, quotient, signs, remainder, and the select between q - 1
    and q. -/
def colHead : IVec S2048 32 :=
  let x : IVec S2048 32 := iotaInDim S2048 32 0
  let k : IVec S_ 32 := constantI S_ 32 64#32
  let q : IVec S2048 32 := Host.divsi x (broadcastInDim S2048 ![] bcast_S_S2048 k)
  select
    (andi (cmpi .ne (signi x) (broadcastInDim S2048 ![] bcast_S_S2048 (signi k)))
      (cmpi .ne (Host.remsi x (broadcastInDim S2048 ![] bcast_S_S2048 k))
        (broadcastInDim S2048 ![] bcast_S_S2048 (constantI S_ 32 0#32))))
    (subi q (broadcastInDim S2048 ![] bcast_S_S2048 (constantI S_ 32 1#32)))
    q

/-- At column o it is the word of o / 64: every operation acts position by position, so the entry is `fdiv64` of the
    word of o. -/
theorem colHead_apply (o : Fin 2048) : colHead (ix1 o) = BitVec.ofNat 32 (o.val / 64) :=
  (show colHead (ix1 o) = fdiv64 (BitVec.ofNat 32 o.val) from rfl).trans (fdiv64_small o)

/-- The comparison of the heads, laid along the columns of a [32, 2048] rectangle, with the row positions, laid along
    its rows, as a number: at (h, o) it is 1 when o / 64 = h and 0 otherwise. Stated for any vector `u` of 2048 words
    in place of the heads, the entry of `u` at o given. -/
theorem onehot_apply (u : IVec S2048 32) (h : Fin 32) (o : Fin 2048) (hu : u (ix1 o) = BitVec.ofNat 32 (o.val / 64)) :
    (uitofp (F := Ideal) .f32 (cmpi .eq
        (broadcastInDim S32x2048 ![0, 1] bcast_S1x2048_S32x2048_0_1
          (broadcastInDim S1x2048 ![1] bcast_S2048_S1x2048_1 u))
        (broadcastInDim S32x2048 ![0, 1] bcast_S32x1_S32x2048_0_1
          (broadcastInDim S32x1 ![0] bcast_S32_S32x1_0 (iotaInDim S32 32 0)))) : S32x2048.Idx → EReal) (ix2 h o)
      = if h = Cert.ShiftGate.headOf o then 1 else 0 := by
  -- the first pair of broadcasts reads column o of u, the second row h of the positions
  have hA : broadcastInDim S32x2048 ![0, 1] bcast_S1x2048_S32x2048_0_1
      (broadcastInDim S1x2048 ![1] bcast_S2048_S1x2048_1 u) (ix2 h o) = BitVec.ofNat 32 (o.val / 64) := by
    rw [← ij_eq_ix2, StableHlo.Predicate.bcast_cols, ofFin_eq_ix1, hu]
  have hB : broadcastInDim S32x2048 ![0, 1] bcast_S32x1_S32x2048_0_1
      (broadcastInDim S32x1 ![0] bcast_S32_S32x1_0 (iotaInDim S32 32 0)) (ix2 h o) = BitVec.ofNat 32 h.val := by
    rw [← ij_eq_ix2, StableHlo.Predicate.bcast_rows, StableHlo.Predicate.iota_apply]
  -- the number is the value of the comparison's bit at (h, o)
  show (((IntOp.cmpi .eq (_ : BitVec 32) (_ : BitVec 32)).toNat : ℝ) : EReal) = _
  rw [hA, hB]
  by_cases hh : h = Cert.ShiftGate.headOf o
  · have hb : IntOp.cmpi .eq (BitVec.ofNat 32 (o.val / 64)) (BitVec.ofNat 32 h.val) = 1#1 :=
      StableHlo.Predicate.cmpi_eq_iff.mpr (by rw [hh]; rfl)
    rw [hb, if_pos hh]
    show (((1 : ℕ) : ℝ) : EReal) = 1
    rw [Nat.cast_one, EReal.coe_one]
  · have hb : IntOp.cmpi .eq (BitVec.ofNat 32 (o.val / 64)) (BitVec.ofNat 32 h.val) = 0#1 :=
      eq_zero_of_ne_one fun h1 => hh (Fin.ext (by
        have ho := o.isLt
        have hlt := h.isLt
        exact (word_inj (by omega) (by omega) (StableHlo.Predicate.cmpi_eq_iff.mp h1)).symm))
    rw [hb, if_neg hh]
    show (((0 : ℕ) : ℝ) : EReal) = 0
    rw [Nat.cast_zero, EReal.coe_zero]

/-! ## The staged arrays at the region's entry -/

variable (m : (ℓ : Loc nD τ sig) → Buf (Elt Ideal) ℓ)

/-- The transposed weight: entry (d, o) is W[o, d]. -/
theorem wt_apply (c : Dev nD) (d : Fin 2048) (o : Fin 2048) :
    (V m c main_v1 : S2048x2048.Idx → EReal) (ix2 d o)
      = (m ((c : Thread nD τ).loc main_arg1) : S2048x2048.Idx → EReal) (ix2 o d) := by
  have e : (V m c main_v1 : S2048x2048.Idx → EReal)
      = truncf (F := Ideal) .bf16 (transpose S2048x2048 [1, 0]
          (m ((c : Thread nD τ).loc main_arg1) : S2048x2048.Idx → EReal) transposes_S2048x2048_S2048x2048_1_0)
          bitsLt_bf16_f32 := by
    dsimp only [Gen.V]
    simp only [Gen.hostOps0, Gen.hostOps0_1, Gen.hostOps0_2, List.flatten_cons, List.flatten_nil, List.append_nil,
      List.cons_append, List.nil_append]
    after_results
  rw [e, truncf_apply, transpose_ix2_apply]

/-- The transposed gate weight: entry (d, h) is Ws[h, d]. -/
theorem wst_apply (c : Dev nD) (d : Fin 2048) (h : Fin 32) :
    (V m c main_v3 : S2048x32.Idx → EReal) (ix2 d h)
      = (m ((c : Thread nD τ).loc main_arg3) : S32x2048.Idx → EReal) (ix2 h d) := by
  have e : (V m c main_v3 : S2048x32.Idx → EReal)
      = truncf (F := Ideal) .bf16 (transpose S2048x32 [1, 0]
          (m ((c : Thread nD τ).loc main_arg3) : S32x2048.Idx → EReal) transposes_S32x2048_S2048x32_1_0)
          bitsLt_bf16_f32 := by
    dsimp only [Gen.V]
    simp only [Gen.hostOps0, Gen.hostOps0_1, Gen.hostOps0_2, List.flatten_cons, List.flatten_nil, List.append_nil,
      List.cons_append, List.nil_append]
    after_results
  rw [e, truncf_apply, transpose_ix2_apply]

/-- The bias as one row: entry (0, o) is b[o]. -/
theorem bias_apply (c : Dev nD) (u : Fin 1) (o : Fin 2048) :
    (V m c main_v4 : S1x2048.Idx → EReal) (ix2 u o)
      = (m ((c : Thread nD τ).loc main_arg2) : S2048.Idx → EReal) (ix1 o) := by
  have e : (V m c main_v4 : S1x2048.Idx → EReal)
      = shapeCast S1x2048 (m ((c : Thread nD τ).loc main_arg2) : S2048.Idx → EReal) shapeCasts_S2048_S1x2048 := by
    dsimp only [Gen.V]
    simp only [Gen.hostOps0, Gen.hostOps0_1, Gen.hostOps0_2, List.flatten_cons, List.flatten_nil, List.append_nil,
      List.cons_append, List.nil_append]
    after_results
    rfl
  rw [e, shapeCast_a_1a_apply]

/-- The head selector as the operations build it: the number of the bit "head of the column = row". -/
theorem sel_eq (c : Dev nD) : (V m c main_v13 : S32x2048.Idx → EReal)
      = uitofp (F := Ideal) .f32 (cmpi .eq
          (broadcastInDim S32x2048 ![0, 1] bcast_S1x2048_S32x2048_0_1
            (broadcastInDim S1x2048 ![1] bcast_S2048_S1x2048_1 colHead))
          (broadcastInDim S32x2048 ![0, 1] bcast_S32x1_S32x2048_0_1
            (broadcastInDim S32x1 ![0] bcast_S32_S32x1_0 (iotaInDim S32 32 0)))) := by
  dsimp only [Gen.V]
  simp only [Gen.hostOps0, Gen.hostOps0_1, Gen.hostOps0_2, List.flatten_cons, List.flatten_nil, List.append_nil,
    List.cons_append, List.nil_append]
  after_results_simp
  rfl

/-- The head selector: entry (h, o) is 1 when column o belongs to head h, else 0. -/
theorem sel_apply (c : Dev nD) (h : Fin 32) (o : Fin 2048) :
    (V m c main_v13 : S32x2048.Idx → EReal) (ix2 h o) = (if h = Cert.ShiftGate.headOf o then (1 : EReal) else 0) := by
  rw [sel_eq m c]
  exact onehot_apply colHead h o (colHead_apply o)

end Cert.ShiftGate.Host

end
-- ==== Proof.KernelValue.lean ====
/-
  The kernel's result array, index by index.

  Grid point t = 16 n + k works on batch n, rows 256 k .. 256 k + 255 of the sequence.  Its input block is
  those rows of x; the other four operands are whole arrays (the transposed weights, the bias row, the
  one-hot head selector), the same at every point.  The row carried into the point is zero at k = 0 and
  otherwise the last projection row of the point before, which is row 256 k - 1 of the same batch.  So the
  block the point stores is the specification's result at rows 256 k + r, and the blocks tile the array.
-/
import proofs.«130949_j695784702569_1_alg».proof.Proof.Gen.KernelIdeal.Value
import proofs.«130949_j695784702569_1_alg».proof.Proof.Spec
import proofs.«130949_j695784702569_1_alg».proof.Proof.Payload
import proofs.«130949_j695784702569_1_alg».proof.Proof.Pieces
import proofs.«130949_j695784702569_1_alg».proof.Proof.HostPrefix
import Idealize.ShloMosaic.Lib.Pipeline.Value
import Idealize.ShloMosaic.Lib.ValueIdx

set_option maxRecDepth 16384

noncomputable section

namespace Cert.ShiftGate.Kern

open Cert.KernelIdeal Cert.KernelIdeal.Gen Cert.KernelIdeal.Value Idealize.ShloMosaic Idealize.ShloMosaic.TcCoe
open Idealize.ShloMosaic.ValueIdx Idealize.SL.Sem Cert.ShiftGate Cert.ShiftGate.Pay Cert.ShiftGate.Pieces
open Idealize.ShloMosaic.Pipeline (Dat)

variable (m : (ℓ : Loc nD τ sig) → Buf (Elt Ideal) ℓ) (ρ : Dev nD → PrngReg)

/-! ## The arguments and the blocks, under names of their literal types -/

abbrev X (c : Dev nD) : FVec Ideal S4x4096x2048 .f32 := m ((c : Thread nD τ).loc main_arg0)
abbrev Wa (c : Dev nD) : FVec Ideal S2048x2048 .f32 := m ((c : Thread nD τ).loc main_arg1)
abbrev Ba (c : Dev nD) : FVec Ideal S2048 .f32 := m ((c : Thread nD τ).loc main_arg2)
abbrev Ga (c : Dev nD) : FVec Ideal S32x2048 .f32 := m ((c : Thread nD τ).loc main_arg3)

abbrev xblk (c : Dev nD) (t : Fin cfg0.N) : FVec Ideal S1x256x2048 .f32 := iblk m c 0 t
abbrev wblk (c : Dev nD) (t : Fin cfg0.N) : FVec Ideal S2048x2048 .bf16 := iblk m c 1 t
abbrev gblk (c : Dev nD) (t : Fin cfg0.N) : FVec Ideal S2048x32 .bf16 := iblk m c 2 t
abbrev bblk (c : Dev nD) (t : Fin cfg0.N) : FVec Ideal S1x2048 .f32 := iblk m c 3 t
abbrev eblk (c : Dev nD) (t : Fin cfg0.N) : FVec Ideal S32x2048 .f32 := iblk m c 4 t

/-- The result the specification gives at the arguments as launched. -/
abbrev Gk (c : Dev nD) : FVec Ideal S4x4096x2048 .f32 := G (X m c) (Wa m c) (Ba m c) (Ga m c)

/-! ## Where each point's blocks sit -/

/-- Point t = 16 n + k reads and writes block (n, k, 0) of the rank-three arrays and block (0, 0) of the others. -/
theorem idx_facts : ∀ t : Fin cfg0.N,
    win0_0.index t (0 : Fin 3) = t.val / 16 ∧ win0_0.index t (1 : Fin 3) = t.val % 16 ∧ win0_0.index t (2 : Fin 3) = 0
    ∧ win0_5.index t (0 : Fin 3) = t.val / 16 ∧ win0_5.index t (1 : Fin 3) = t.val % 16 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem xblk_apply (c : Dev nD) (t : Fin cfg0.N) (u : Fin 1) (r : Fin 256) (d : Fin 2048) (n : Fin 4) (s : Fin 4096)
    (hn : n.val = t.val / 16) (hs : s.val = 256 * (t.val % 16) + r.val) :
    xblk m c t (ix3 u r d) = X m c (ix3 n s d) := by
  obtain ⟨e0, e1, e2, -⟩ := idx_facts t
  show iblk m c 0 t (ix3 u r d) = _
  unfold iblk
  rw [View.read_apply]
  refine (congrFun (V_main_arg0 m c) _).trans (congrArg (X m c) (funext fun a => Fin.ext ?_))
  have hu : u.val = 0 := by have := u.isLt; omega
  match a with
  | ⟨0, _⟩ => show win0_0.index t (0 : Fin 3) * 1 + 1 * u.val = n.val; omega
  | ⟨1, _⟩ => show win0_0.index t (1 : Fin 3) * 256 + 1 * r.val = s.val; omega
  | ⟨2, _⟩ => show win0_0.index t (2 : Fin 3) * 2048 + 1 * d.val = d.val; omega

theorem wblk_apply (c : Dev nD) (t : Fin cfg0.N) (d : Fin 2048) (o : Fin 2048) :
    wblk m c t (ix2 d o) = Wa m c (ix2 o d) := by
  obtain ⟨-, -, -, -, -, -, e0, e1, -⟩ := idx_facts t
  show iblk m c 1 t (ix2 d o) = _
  unfold iblk
  rw [View.read_apply]
  refine Eq.trans (congrArg (V m c main_v1 : S2048x2048.Idx → EReal) (funext fun a => Fin.ext ?_)) (Host.wt_apply m c d o)
  match a with
  | ⟨0, _⟩ => show win0_1.index t (0 : Fin 2) * 2048 + 1 * d.val = d.val; omega
  | ⟨1, _⟩ => show win0_1.index t (1 : Fin 2) * 2048 + 1 * o.val = o.val; omega

theorem gblk_apply (c : Dev nD) (t : Fin cfg0.N) (d : Fin 2048) (h : Fin 32) :
    gblk m c t (ix2 d h) = Ga m c (ix2 h d) := by
  obtain ⟨-, -, -, -, -, -, -, -, e0, e1, -⟩ := idx_facts t
  show iblk m c 2 t (ix2 d h) = _
  unfold iblk
  rw [View.read_apply]
  refine Eq.trans (congrArg (V m c main_v3 : S2048x32.Idx → EReal) (funext fun a => Fin.ext ?_)) (Host.wst_apply m c d h)
  match a with
  | ⟨0, _⟩ => show win0_2.index t (0 : Fin 2) * 2048 + 1 * d.val = d.val; omega
  | ⟨1, _⟩ => show win0_2.index t (1 : Fin 2) * 32 + 1 * h.val = h.val; omega

theorem bblk_apply (c : Dev nD) (t : Fin cfg0.N) (u : Fin 1) (o : Fin 2048) :
    bblk m c t (ix2 u o) = Ba m c (ix1 o) := by
  obtain ⟨-, -, -, -, -, -, -, -, -, -, e0, e1, -⟩ := idx_facts t
  show iblk m c 3 t (ix2 u o) = _
  unfold iblk
  rw [View.read_apply]
  refine Eq.trans (congrArg (V m c main_v4 : S1x2048.Idx → EReal) (funext fun a => Fin.ext ?_)) (Host.bias_apply m c u o)
  match a with
  | ⟨0, _⟩ => show win0_3.index t (0 : Fin 2) * 1 + 1 * u.val = u.val; omega
  | ⟨1, _⟩ => show win0_3.index t (1 : Fin 2) * 2048 + 1 * o.val = o.val; omega

theorem eblk_apply (c : Dev nD) (t : Fin cfg0.N) (h : Fin 32) (o : Fin 2048) :
    eblk m c t (ix2 h o) = (if h = headOf o then (1 : EReal) else 0) := by
  obtain ⟨-, -, -, -, -, -, -, -, -, -, -, -, e0, e1⟩ := idx_facts t
  show iblk m c 4 t (ix2 h o) = _
  unfold iblk
  rw [View.read_apply]
  refine Eq.trans (congrArg (V m c main_v13 : S32x2048.Idx → EReal) (funext fun a => Fin.ext ?_)) (Host.sel_apply m c h o)
  match a with
  | ⟨0, _⟩ => show win0_4.index t (0 : Fin 2) * 32 + 1 * h.val = h.val; omega
  | ⟨1, _⟩ => show win0_4.index t (1 : Fin 2) * 2048 + 1 * o.val = o.val; omega

/-! ## The block's projection and gate are the specification's -/

theorem lin_blk (c : Dev nD) (t : Fin cfg0.N) (r : Fin 256) (o : Fin 2048) (n : Fin 4) (s : Fin 4096)
    (hn : n.val = t.val / 16) (hs : s.val = 256 * (t.val % 16) + r.val) :
    linB (xblk m c t) (wblk m c t) (bblk m c t) r o = lin (X m c) (Wa m c) (Ba m c) n s o := by
  unfold linB lin
  rw [bblk_apply m c t 0 o]
  refine congrArg (· + Ba m c (ix1 o)) (Finset.sum_congr rfl fun d _ => ?_)
  rw [xblk_apply m c t 0 r d n s hn hs, wblk_apply m c t d o]

/-- The selector keeps, of the 32 gates of a row, the one of the column's own head. -/
theorem gate_blk (c : Dev nD) (t : Fin cfg0.N) (r : Fin 256) (o : Fin 2048) (n : Fin 4) (s : Fin 4096)
    (hn : n.val = t.val / 16) (hs : s.val = 256 * (t.val % 16) + r.val) :
    gateB (xblk m c t) (gblk m c t) (eblk m c t) r o = gate (X m c) (Ga m c) n s (headOf o) := by
  unfold gateB gate
  refine (sum_onehot _ _ (headOf o) (fun h => eblk_apply m c t h o)).trans ?_
  refine congrArg Ideal.logistic (Finset.sum_congr rfl fun d _ => ?_)
  rw [xblk_apply m c t 0 r d n s hn hs, gblk_apply m c t d (headOf o)]

/-! ## The carried row -/

/-- After any point the carried row is the last projection row of that point's block. -/
theorem carried (c : Dev nD) (t : Fin cfg0.N) :
    (outsAt0 m c t.val t.isLt).2 = k0_pay5 (F := Ideal) (xblk m c t) (wblk m c t) (bblk m c t) := by
  by_cases h0 : t.val % 16 = 0
  · rw [outsAt0_A m c t h0]
    dsimp only
    exact soutA_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)
  · rw [outsAt0_B m c t h0]
    dsimp only
    exact soutB_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2

/-- The row carried into point t: zero at a sequence's first block, else what the point before left. -/
def carryIn (c : Dev nD) (t : Fin cfg0.N) : FVec Ideal S1x2048 .f32 :=
  if t.val % 16 = 0 then k0_pay2 (F := Ideal) else (outsAt0 m c (t.val - 1) (Nat.lt_of_le_of_lt (Nat.sub_le _ _) t.isLt)).2

/-- What point t leaves in the output's staging buffer: the stored block over the row carried in. -/
theorem stored (c : Dev nD) (t : Fin cfg0.N) :
    (outsAt0 m c t.val t.isLt).1
      = k0_pay1 (F := Ideal) (k0_pay6 (F := Ideal) (xblk m c t) (wblk m c t) (bblk m c t) (gblk m c t) (eblk m c t) (carryIn m c t)) := by
  unfold carryIn
  by_cases h0 : t.val % 16 = 0
  · rw [outsAt0_A m c t h0, if_pos h0]
    dsimp only
    exact outA_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)
  · rw [outsAt0_B m c t h0, if_neg h0]
    dsimp only
    exact outB_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2

/-- The row carried into point t = 16 n + k is the specification's previous-step projection at row 256 k:
    zero at k = 0, and otherwise the projection at row 256 k - 1 of the same batch, the last row of the
    block before. -/
theorem carryIn_apply (c : Dev nD) (t : Fin cfg0.N) (u : Fin 1) (o : Fin 2048) (n : Fin 4) (s : Fin 4096)
    (hn : n.val = t.val / 16) (hs : s.val = 256 * (t.val % 16)) :
    carryIn m c t (ix2 u o) = prev (X m c) (Wa m c) (Ba m c) n s o := by
  have hN : t.val < 64 := lt_of_lt_of_eq t.isLt (show cfg0.N = 64 from N_0)
  unfold carryIn prev
  by_cases h0 : t.val % 16 = 0
  · rw [if_pos h0, if_pos (show s.val = 0 by omega)]
    exact pay2_apply u o
  · rw [if_neg h0, if_neg (show ¬s.val = 0 by omega)]
    have hlt : t.val - 1 < cfg0.N := Nat.lt_of_le_of_lt (Nat.sub_le _ _) t.isLt
    refine (congrFun (carried m c ⟨t.val - 1, hlt⟩) (ix2 u o)).trans ?_
    rw [pay5_apply]
    exact lin_blk m c ⟨t.val - 1, hlt⟩ ⟨255, by decide⟩ o n ⟨s.val - 1, by have := s.isLt; omega⟩
      (by show n.val = (t.val - 1) / 16; omega) (by show s.val - 1 = 256 * ((t.val - 1) % 16) + 255; omega)

/-- The projection block of point t shifted down one row, the carried row on top, is the specification's
    previous-step projection at the block's rows. -/
theorem shift_blk (c : Dev nD) (t : Fin cfg0.N) (r : Fin 256) (o : Fin 2048) (n : Fin 4) (s : Fin 4096)
    (hn : n.val = t.val / 16) (hs : s.val = 256 * (t.val % 16) + r.val) :
    shiftB (xblk m c t) (wblk m c t) (bblk m c t) (carryIn m c t) r o = prev (X m c) (Wa m c) (Ba m c) n s o := by
  unfold shiftB
  by_cases hr : r.val = 0
  · rw [dif_pos hr]
    exact carryIn_apply m c t 0 o n s hn (by omega)
  · rw [dif_neg hr]
    unfold prev
    rw [if_neg (show ¬s.val = 0 by omega)]
    exact lin_blk m c t ⟨r.val - 1, by have := r.isLt; omega⟩ o n ⟨s.val - 1, by have := s.isLt; omega⟩ hn
      (by show s.val - 1 = 256 * (t.val % 16) + (r.val - 1); omega)

/-- Entry (r, o) of the block point t = 16 n + k stores is the specification's result at (n, 256 k + r, o). -/
theorem stored_apply (c : Dev nD) (t : Fin cfg0.N) (u : Fin 1) (r : Fin 256) (o : Fin 2048) (n : Fin 4) (s : Fin 4096)
    (hn : n.val = t.val / 16) (hs : s.val = 256 * (t.val % 16) + r.val) :
    (outsAt0 m c t.val t.isLt).1 (ix3 u r o) = res (X m c) (Wa m c) (Ba m c) (Ga m c) n s o := by
  rw [stored m c t, pay1_apply, pay6_apply, gate_blk m c t r o n s hn hs, lin_blk m c t r o n s hn hs,
    shift_blk m c t r o n s hn hs]
  rfl

/-! ## From the blocks to the array -/

/-- What point t writes back is its block of the specification's result. -/
theorem flushed_eq (c : Dev nD) (t : Fin cfg0.N) :
    (dats m 0 c).flushed 5 t = ((cfg0.win 5).blk t).view.read (Elt Ideal) (Gk m c) := by
  obtain ⟨-, -, -, e0, e1, e2, -⟩ := idx_facts t
  have hN : t.val < 64 := lt_of_lt_of_eq t.isLt (show cfg0.N = 64 from N_0)
  rw [flushed5]
  funext j
  have hj0 : (j 0).val < 1 := (j 0).isLt
  have hj1 : (j 1).val < 256 := (j 1).isLt
  have hj2 : (j 2).val < 2048 := (j 2).isLt
  have eL : (cfg0.win 5).xinj (grid0.coords t) j
      = ix3 (⟨(j 0).val, hj0⟩ : Fin 1) (⟨(j 1).val, hj1⟩ : Fin 256) (⟨(j 2).val, hj2⟩ : Fin 2048) :=
    funext fun a => Fin.ext (by
      match a with
      | ⟨0, _⟩ => rfl
      | ⟨1, _⟩ => rfl
      | ⟨2, _⟩ => rfl)
  have eR : ((cfg0.win 5).blk t).view.emb j
      = ix3 (⟨t.val / 16, by omega⟩ : Fin 4) (⟨256 * (t.val % 16) + (j 1).val, by omega⟩ : Fin 4096) (⟨(j 2).val, hj2⟩ : Fin 2048) :=
    funext fun a => Fin.ext (by
      match a with
      | ⟨0, _⟩ => show win0_5.index t (0 : Fin 3) * 1 + 1 * (j 0).val = t.val / 16; omega
      | ⟨1, _⟩ => show win0_5.index t (1 : Fin 3) * 256 + 1 * (j 1).val = 256 * (t.val % 16) + (j 1).val; omega
      | ⟨2, _⟩ => show win0_5.index t (2 : Fin 3) * 2048 + 1 * (j 2).val = (j 2).val; omega)
  show (outsAt0 m c t.val t.isLt).1 ((cfg0.win 5).xinj (grid0.coords t) j) = Gk m c (((cfg0.win 5).blk t).view.emb j)
  rw [eL, eR]
  exact stored_apply m c t _ _ _ _ _ rfl rfl

/-- Every index (n, s, o) of the result lies in the block of point 16 n + s / 256. -/
theorem cover (i : S4x4096x2048.Idx) :
    ∃ t : Fin cfg0.N, (cfg0.win 5).flush t = true ∧ i ∈ ((cfg0.win 5).blk t).view.set := by
  have h0 : (i 0).val < 4 := (i 0).isLt
  have h1 : (i 1).val < 4096 := (i 1).isLt
  have h2 : (i 2).val < 2048 := (i 2).isLt
  have hN : cfg0.N = 64 := N_0
  have hlt : 16 * (i 0).val + (i 1).val / 256 < cfg0.N := by omega
  refine ⟨⟨16 * (i 0).val + (i 1).val / 256, hlt⟩, flush0_5 _, ?_⟩
  obtain ⟨-, -, -, e0, e1, e2, -⟩ := idx_facts ⟨16 * (i 0).val + (i 1).val / 256, hlt⟩
  have hv : (⟨16 * (i 0).val + (i 1).val / 256, hlt⟩ : Fin cfg0.N).val = 16 * (i 0).val + (i 1).val / 256 := rfl
  show i ∈ ((View.whole main_v14).slice (win0_5.rect ⟨16 * (i 0).val + (i 1).val / 256, hlt⟩)).set
  rw [View.set_slice_whole, Rect.mem_set_unit]
  intro a
  match a with
  | ⟨0, _⟩ =>
    show win0_5.index ⟨16 * (i 0).val + (i 1).val / 256, hlt⟩ (0 : Fin 3) * 1 ≤ (i 0).val
      ∧ (i 0).val < win0_5.index ⟨16 * (i 0).val + (i 1).val / 256, hlt⟩ (0 : Fin 3) * 1 + 1
    omega
  | ⟨1, _⟩ =>
    show win0_5.index ⟨16 * (i 0).val + (i 1).val / 256, hlt⟩ (1 : Fin 3) * 256 ≤ (i 1).val
      ∧ (i 1).val < win0_5.index ⟨16 * (i 0).val + (i 1).val / 256, hlt⟩ (1 : Fin 3) * 256 + 256
    omega
  | ⟨2, _⟩ =>
    show win0_5.index ⟨16 * (i 0).val + (i 1).val / 256, hlt⟩ (2 : Fin 3) * 2048 ≤ (i 2).val
      ∧ (i 2).val < win0_5.index ⟨16 * (i 0).val + (i 1).val / 256, hlt⟩ (2 : Fin 3) * 2048 + 2048
    omega

/-- The result array after the run is the specification's result of the arguments as launched. -/
theorem final (c : Dev nD) : (dats m 0 c).arrAt 5 cfg0.N = Gk m c :=
  (dats m 0 c).arrAt_eq_of_cover 5 (Gk m c) (fun t _ => flushed_eq m c t) cover

/-- The kernel's run: it ends with the result array at the specification's result, the arguments unchanged. -/
theorem run : θ_run defs (onTc (τ := τ) (main (F := Ideal))) ⟨m, fun _ => 0, ρ⟩ fun r => ∀ c : Dev nD,
      r.2.mem ((c : Thread nD τ).loc main_v14) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.ShiftGate.Kern

end
-- ==== Proof.RefValue.lean ====
/-
  The reference program, read index by index, is the gated token shift of the specification.

  At index (n, t, o) the last reshape reads the rank-4 blend at (n, t, o / 64, o % 64). There the
  program forms  a * p + (1 - a) * y  where
    a = 1 / (1 + exp (-(row (n, t) of x against row o / 64 of Ws)))   the logistic of that sum,
    y = the projection  lin n t (64 * (o / 64) + o % 64) = lin n t o   (the first reshape read back),
    p = the padded slice: zero at t = 0 (the one row put in front along the time axis),
        and the projection at time t - 1 otherwise.
-/
import proofs.«130949_j695784702569_1_alg».proof.Proof.Spec
import proofs.«130949_j695784702569_1_alg».proof.Proof.Gen.ReferenceIdeal.Read
import Idealize.ShloMosaic.Lib.KernelVsHost

noncomputable section

namespace Cert.ShiftGate.Ref

open Cert.ReferenceIdeal Cert.ReferenceIdeal.Gen Cert.ReferenceIdeal.Read
open Idealize.ShloMosaic Idealize.ShloMosaic.ValueIdx Idealize.ShloMosaic.StableHlo

/-- The arrays of the reference's four arguments, as functions of an index. -/
abbrev AX := (⟨S4x4096x2048, .f32⟩ : BufTy).Contents (Elt Ideal)
abbrev AW := (⟨S2048x2048, .f32⟩ : BufTy).Contents (Elt Ideal)
abbrev AB := (⟨S2048, .f32⟩ : BufTy).Contents (Elt Ideal)
abbrev AG := (⟨S32x2048, .f32⟩ : BufTy).Contents (Elt Ideal)

/-- Column c of head h is output column 64 h + c. -/
def col (h : Fin 32) (c : Fin 64) : Fin 2048 := ⟨h.val * 64 + c.val, by have := h.isLt; have := c.isLt; omega⟩

/-- The column of an output column inside its head: the remainder by 64. -/
def within (o : Fin 2048) : Fin 64 := ⟨o.val % 64, Nat.mod_lt _ (by decide)⟩

/-- An output column is column (o % 64) of head (o / 64). -/
theorem col_headOf_within (o : Fin 2048) : col (headOf o) (within o) = o :=
  Fin.ext (by show o.val / 64 * 64 + o.val % 64 = o.val; omega)

/-! ## The dense projection -/

/-- The first contraction and the broadcast bias, added: the projection at (n, t, o). -/
theorem lin_read (x : AX) (W : AW) (b : AB) (n : Fin 4) (t : Fin 4096) (o : Fin 2048) :
    val_main_v3 (F := Ideal) x W b (ix3 n t o) = lin x W b n t o := by
  have el : ∀ k : Fin 2048, lidx_main_v0 (ix3 n t o) k = ix3 n t k := fun k => funext fun a => by
    match a with
    | ⟨0, _⟩ => rfl
    | ⟨1, _⟩ => rfl
    | ⟨2, _⟩ => rfl
  have er : ∀ k : Fin 2048, ridx_main_v0 (ix3 n t o) k = ix2 o k := fun k => funext fun a => by
    match a with
    | ⟨0, _⟩ => rfl
    | ⟨1, _⟩ => rfl
  have eb : idx_main_v1 (idx_main_v2 (ix3 n t o)) = ix1 o := funext fun a => by
    match a with
    | ⟨0, _⟩ => rfl
  rw [val_main_v3_apply, val_main_v0_apply, val_main_v2_apply, val_main_v1_apply, eb]
  simp only [el, er]
  rfl

/-- The first reshape, [4, 4096, 2048] to [4, 4096, 32, 64], read at (n, t, h, c): the projection at column 64 h + c. -/
theorem out_read (x : AX) (W : AW) (b : AB) (n : Fin 4) (t : Fin 4096) (h : Fin 32) (c : Fin 64) :
    val_main_v11 (F := Ideal) x W b (ix4 n t h c) = lin x W b n t (col h c) := by
  have e : idx_main_v11 (ix4 n t h c) = ix3 n t (col h c) := funext fun a => Fin.ext (by
    have hn := n.isLt; have ht := t.isLt; have hh := h.isLt; have hc := c.isLt
    match a with
    | ⟨0, _⟩ => show (((n.val * 4096 + t.val) * 32 + h.val) * 64 + c.val) / 8388608 = n.val; omega
    | ⟨1, _⟩ => show (((n.val * 4096 + t.val) * 32 + h.val) * 64 + c.val) / 2048 % 4096 = t.val; omega
    | ⟨2, _⟩ => show (((n.val * 4096 + t.val) * 32 + h.val) * 64 + c.val) % 2048 = h.val * 64 + c.val; omega)
  rw [val_main_v11_apply, e, lin_read]

/-! ## The gate -/

/-- The second contraction through negate, exponential, add and divide: the logistic gate of head h at (n, t). -/
theorem gate_read (x : AX) (Ws : AG) (n : Fin 4) (t : Fin 4096) (h : Fin 32) :
    val_main_v10 (F := Ideal) x Ws (ix3 n t h) = gate x Ws n t h := by
  have el : ∀ k : Fin 2048, lidx_main_v4 (ix3 n t h) k = ix3 n t k := fun k => funext fun a => by
    match a with
    | ⟨0, _⟩ => rfl
    | ⟨1, _⟩ => rfl
    | ⟨2, _⟩ => rfl
  have er : ∀ k : Fin 2048, ridx_main_v4 (ix3 n t h) k = ix2 h k := fun k => funext fun a => by
    match a with
    | ⟨0, _⟩ => rfl
    | ⟨1, _⟩ => rfl
  have h1 : Ideal.ofBits .f32 0x3F800000#32 = (1 : EReal) := one_eq
  rw [val_main_v10_apply, val_main_v9_apply, val_main_cst_0_apply, val_main_v8_apply, val_main_v7_apply,
    val_main_cst_apply, val_main_v6_apply, val_main_v5_apply, val_main_v4_apply]
  simp only [el, er, Ideal.hostDivf_def, Ideal.ofBits_def, Ideal.addf_def, Ideal.hostUnary_exp_def, Ideal.hostNegf_def,
    Ideal.negf_def, h1]
  rfl

/-- The gate broadcast along the 64 columns of its head. -/
theorem gate_bcast_read (x : AX) (Ws : AG) (n : Fin 4) (t : Fin 4096) (h : Fin 32) (c : Fin 64) :
    val_main_v15 (F := Ideal) x Ws (ix4 n t h c) = gate x Ws n t h := by
  have e : idx_main_v14 (idx_main_v15 (ix4 n t h c)) = ix3 n t h := funext fun a => by
    match a with
    | ⟨0, _⟩ => rfl
    | ⟨1, _⟩ => rfl
    | ⟨2, _⟩ => rfl
  rw [val_main_v15_apply, val_main_v14_apply, e, gate_read]

/-- One minus the gate, broadcast along the 64 columns of its head. -/
theorem cogate_bcast_read (x : AX) (Ws : AG) (n : Fin 4) (t : Fin 4096) (h : Fin 32) (c : Fin 64) :
    val_main_v19 (F := Ideal) x Ws (ix4 n t h c) = one - gate x Ws n t h := by
  have e : idx_main_v14 (idx_main_v19 (ix4 n t h c)) = ix3 n t h := funext fun a => by
    match a with
    | ⟨0, _⟩ => rfl
    | ⟨1, _⟩ => rfl
    | ⟨2, _⟩ => rfl
  rw [val_main_v19_apply, val_main_v18_apply, val_main_v17_apply, val_main_cst_1_apply, val_main_v14_apply, e, gate_read]
  rfl

/-! ## The shifted projection -/

/-- The padding value is the integer zero converted: the float zero. -/
theorem pad_value : val_main_call0_v0 (F := Ideal) (Shape.Idx.first h_S_) = 0 := by
  show ((((0#32 : BitVec 32).toInt : ℤ) : ℝ) : EReal) = 0
  simp

/-- The slice of the first 4095 time steps with one zero row put in front: zero at t = 0, the projection one
    step earlier otherwise. -/
theorem prev_read (x : AX) (W : AW) (b : AB) (n : Fin 4) (t : Fin 4096) (h : Fin 32) (c : Fin 64) :
    val_main_v13 (F := Ideal) x W b (ix4 n t h c) = prev x W b n t (col h c) := by
  unfold val_main_v13 prev
  by_cases ht : t.val = 0
  · rw [if_pos ht]
    refine (pad_apply_of_not_inside _ _ _ _ _ pads_S4x4095x32x64_S4x4096x32x64_000_100_000_000 h_S_ (ix4 n t h c)
      (1 : Fin 4) ?_).trans pad_value
    intro hin
    have h1 : 1 ≤ t.val := hin.1
    omega
  · rw [if_neg ht]
    have htl : t.val - 1 < 4095 := by have := t.isLt; omega
    refine (pad_apply_of_inside _ _ _ _ _ pads_S4x4095x32x64_S4x4096x32x64_000_100_000_000 h_S_ (ix4 n t h c)
      (ix4 n (⟨t.val - 1, htl⟩ : Fin 4095) h c) ?_).trans ?_
    · intro a
      match a with
      | ⟨0, _⟩ => show n.val = 0 + n.val * (0 + 1); omega
      | ⟨1, _⟩ => show t.val = 1 + (t.val - 1) * (0 + 1); omega
      | ⟨2, _⟩ => show h.val = 0 + h.val * (0 + 1); omega
      | ⟨3, _⟩ => show c.val = 0 + c.val * (0 + 1); omega
    · have e : idx_main_v12 (ix4 n (⟨t.val - 1, htl⟩ : Fin 4095) h c)
          = ix4 n (⟨t.val - 1, by have := t.isLt; omega⟩ : Fin 4096) h c := funext fun a => by
        match a with
        | ⟨0, _⟩ => rfl
        | ⟨1, _⟩ => rfl
        | ⟨2, _⟩ => rfl
        | ⟨3, _⟩ => rfl
      rw [val_main_v12_apply, e, out_read]

/-! ## The reference is the specification's function -/

/-- The reference's result array is the gated blend of the previous and the current projection. -/
theorem ref_eq (x : (⟨Cert.ReferenceIdeal.S4x4096x2048, .f32⟩ : BufTy).Contents (Elt Ideal))
    (W : (⟨Cert.ReferenceIdeal.S2048x2048, .f32⟩ : BufTy).Contents (Elt Ideal))
    (b : (⟨Cert.ReferenceIdeal.S2048, .f32⟩ : BufTy).Contents (Elt Ideal))
    (Ws : (⟨Cert.ReferenceIdeal.S32x2048, .f32⟩ : BufTy).Contents (Elt Ideal)) :
    Cert.ReferenceIdeal.Read.val_main_v22 (F := Ideal) x W b Ws = Cert.ShiftGate.G x W b Ws := by
  funext i
  obtain ⟨n, t, o, rfl⟩ : ∃ (n : Fin 4) (t : Fin 4096) (o : Fin 2048), i = ix3 n t o := ⟨i 0, i 1, i 2, eq_ix3 i⟩
  have e : idx_main_v22 (ix3 n t o) = ix4 n t (headOf o) (within o) := funext fun a => Fin.ext (by
    have hn := n.isLt; have ht := t.isLt; have ho := o.isLt
    match a with
    | ⟨0, _⟩ => show ((n.val * 4096 + t.val) * 2048 + o.val) / 8388608 = n.val; omega
    | ⟨1, _⟩ => show ((n.val * 4096 + t.val) * 2048 + o.val) / 2048 % 4096 = t.val; omega
    | ⟨2, _⟩ => show ((n.val * 4096 + t.val) * 2048 + o.val) / 64 % 32 = o.val / 64; omega
    | ⟨3, _⟩ => show ((n.val * 4096 + t.val) * 2048 + o.val) % 64 = o.val % 64; omega)
  rw [val_main_v22_apply, e, val_main_v21_apply, val_main_v16_apply, val_main_v20_apply, gate_bcast_read,
    cogate_bcast_read, prev_read, out_read, col_headOf_within, G_ix3]
  rfl

end Cert.ShiftGate.Ref

end
-- ==== Proof.lean ====
/-
  A linear projection with a sigmoid-gated token shift, tiled over (batch, 256-row block), against its reference
  program: the kernel and the reference compute one function on the extended reals.

  For batch n, time step t and output column o (head h = o / 64), with
      lin n t o  = (sum over d of x[n,t,d] * W[o,d]) + b[o]
      gate n t h = logistic (sum over d of x[n,t,d] * Ws[h,d])
      prev n t o = 0 at t = 0, lin n (t-1) o otherwise,
  both programs end with  gate n t h * prev n t o + (1 - gate n t h) * lin n t o  at (n, t, o).

  The kernel forms the projection and the gate by products against the transposed weights (the change of float format
  is the identity on the extended reals), spreads each head's gate over its 64 columns by a product with a one-hot
  selector (every other product is a * 0 = 0, for infinite a too, so no finiteness of the inputs is used), and carries the
  last projection row of each 256-row block to the next block of the same batch, a zero row at a batch's first block.
  The reference reshapes to heads, pads one zero step in front of the shifted projection and broadcasts the gate along a head.
  No law beyond commutativity and associativity of the sums joins the two sides; the precondition is never opened.
  The three frames are the generated ones (the reference's is its generated run with the result dropped); the
  idealized kernel has the kernel's own operations, so the idealization claim is trivial.
-/
import proofs.«130949_j695784702569_1_alg».proof.Defs
import proofs.«130949_j695784702569_1_alg».proof.Proof.Gen.Kernel
import proofs.«130949_j695784702569_1_alg».proof.Proof.Gen.Kernel.Skeleton
import proofs.«130949_j695784702569_1_alg».proof.Proof.Gen.Kernel.Launch
import proofs.«130949_j695784702569_1_alg».proof.Proof.Gen.Kernel.Points
import proofs.«130949_j695784702569_1_alg».proof.Proof.Gen.Kernel.Frame
import proofs.«130949_j695784702569_1_alg».proof.Proof.Gen.KernelIdeal
import proofs.«130949_j695784702569_1_alg».proof.Proof.Gen.KernelIdeal.Skeleton
import proofs.«130949_j695784702569_1_alg».proof.Proof.Gen.KernelIdeal.Launch
import proofs.«130949_j695784702569_1_alg».proof.Proof.Gen.KernelIdeal.Points
import proofs.«130949_j695784702569_1_alg».proof.Proof.Gen.KernelIdeal.Frame
import proofs.«130949_j695784702569_1_alg».proof.Proof.Gen.ReferenceIdeal
import proofs.«130949_j695784702569_1_alg».proof.Proof.Gen.Pre_finite_inputs
import proofs.«130949_j695784702569_1_alg».proof.Proof.Gen.KernelIdeal.Value
import proofs.«130949_j695784702569_1_alg».proof.Proof.Gen.ReferenceIdeal.Run
import proofs.«130949_j695784702569_1_alg».proof.Proof.Gen.ReferenceIdeal.Read
import proofs.«130949_j695784702569_1_alg».proof.Proof.KernelValue
import proofs.«130949_j695784702569_1_alg».proof.Proof.RefValue
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference's run, with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the specification's result of the arguments: the kernel's by its blocks, the reference's stage by
    stage; the arguments agree, so the results are equal. -/
theorem algebraic : Cert.algebraic_KernelIdeal_ReferenceIdeal := by
  intro m ρ m' ρ' _ hagree
  refine ⟨fun c => Cert.ShiftGate.Kern.Gk m c, Cert.ShiftGate.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ShiftGate.Ref.ref_eq, (hagree c).1, (hagree c).2.1, (hagree c).2.2.1,
    (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
